-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_v48 main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x1024 .f32) (main_arg2 : FVec F S1024x1024 .f32) (main_arg3 : FVec F S1024x1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024 .f32) (main_arg10 : FVec F S1024 .f32) (main_arg11 : FVec F S1024 .f32) (main_arg12 : FVec F S1024 .f32) (main_arg13 : FVec F S1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1x3072 : Shape := ⟨2, ![1, 3072]⟩
abbrev S1024x3072 : Shape := ⟨2, ![1024, 3072]⟩
abbrev S256x1024 : Shape := ⟨2, ![256, 1024]⟩
abbrev S256x3072 : Shape := ⟨2, ![256, 3072]⟩

abbrev nBuf : Space → Nat
  | .hbm => 25
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S3072x1024, .f32⟩
  | .hbm, ⟨15, _⟩ => ⟨S3072x1024, .f32⟩
  | .hbm, ⟨16, _⟩ => ⟨S3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S3072x1024, .bf16⟩
  | .hbm, ⟨21, _⟩ => ⟨S1024x3072, .bf16⟩
  | .hbm, ⟨22, _⟩ => ⟨S3072x1024, .bf16⟩
  | .hbm, ⟨23, _⟩ => ⟨S1024x3072, .bf16⟩
  | .hbm, ⟨24, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  shapeCasts_S3072_S1x3072 : S3072.ShapeCasts S1x3072
  bitsLt_bf16_f32 : FTy.bits .bf16 < FTy.bits .f32
  transposes_S3072x1024_S1024x3072_1_0 : S3072x1024.Transposes [1, 0] S1024x3072
  inb_S256x1024_S256x1024_0_0 : ∀ a, (![0, 0] : Fin 2 → Nat) a + S256x1024.size a ≤ S256x1024.size a
  h_S256x1024 : 0 < S256x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S32768x1024.size a
  hwx0_0 : ∀ i : grid0.Coords, EltTy.bits .f32 = 32 ∨ (Rect.block (s := S32768x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S32768x1024.size a
  hwx0_1 : ∀ i : grid0.Coords, EltTy.bits .f32 = 32 ∨ (Rect.block (s := S32768x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x3072.size a ≤ S1024x3072.size a
  hwx0_2 : ∀ i : grid0.Coords, EltTy.bits .bf16 = 32 ∨ (Rect.block (s := S1024x3072) S1024x3072.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S32768x1024.size a
  hwx0_6 : ∀ i : grid0.Coords, EltTy.bits .f32 = 32 ∨ (Rect.block (s := S32768x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S3072x1024 : Shape := ⟨2, ![3072, 1024]⟩
abbrev S3072 : Shape := ⟨1, ![3072]⟩
abbrev S1024x3072 : Shape := ⟨2, ![1024, 3072]⟩
abbrev S32768x3072 : Shape := ⟨2, ![32768, 3072]⟩
abbrev S1x3072 : Shape := ⟨2, ![1, 3072]⟩
abbrev S_ : Shape := ⟨0, ![]⟩

abbrev nBuf : Space → Nat
  | .hbm => 61
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024, .f32⟩
  | .hbm, ⟨10, _⟩ => ⟨S1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S3072x1024, .f32⟩
  | .hbm, ⟨15, _⟩ => ⟨S3072x1024, .f32⟩
  | .hbm, ⟨16, _⟩ => ⟨S3072, .f32⟩
  | .hbm, ⟨17, _⟩ => ⟨S3072, .f32⟩
  | .hbm, ⟨18, _⟩ => ⟨S1024x3072, .f32⟩
  | .hbm, ⟨19, _⟩ => ⟨S32768x3072, .f32⟩
  | .hbm, ⟨20, _⟩ => ⟨S1x3072, .f32⟩
  | .hbm, ⟨21, _⟩ => ⟨S32768x3072, .f32⟩
  | .hbm, ⟨22, _⟩ => ⟨S32768x3072, .f32⟩
  | .hbm, ⟨23, _⟩ => ⟨S1024x3072, .f32⟩
  | .hbm, ⟨24, _⟩ => ⟨S32768x3072, .f32⟩
  | .hbm, ⟨25, _⟩ => ⟨S1x3072, .f32⟩
  | .hbm, ⟨26, _⟩ => ⟨S32768x3072, .f32⟩
  | .hbm, ⟨27, _⟩ => ⟨S32768x3072, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .hbm, ⟨35, _⟩ => ⟨S32768x1024, .f32⟩
  | .hbm, ⟨36, _⟩ => ⟨S32768x1024, .f32⟩
  | .hbm, ⟨37, _⟩ => ⟨S_, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S_, .f32⟩
  | .hbm, ⟨47, _⟩ => ⟨S32768x1024, .f32⟩
  | .hbm, ⟨48, _⟩ => ⟨S32768x1024, .f32⟩
  | .hbm, ⟨49, _⟩ => ⟨S_, .f32⟩
  | .hbm, ⟨50, _⟩ => ⟨S32768x1024, .f32⟩
  | .hbm, ⟨51, _⟩ => ⟨S32768x1024, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S_, .f32⟩
  | .hbm, ⟨56, _⟩ => ⟨S32768x1024, .f32⟩
  | .hbm, ⟨57, _⟩ => ⟨S32768x1024, .f32⟩
  | .hbm, ⟨58, _⟩ => ⟨S32768x1024, .f32⟩
  | .hbm, ⟨59, _⟩ => ⟨S32768x1024, .f32⟩
  | .hbm, ⟨60, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_1 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_3 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩

abbrev nD : Nat := 1
abbrev τ : Topo := Topo.v7x

variable {F : FTy → Type} [FloatOps F]

class Facts₀ : Prop where
  concatenates_S1024x1024_S1024x1024_S1024x1024_S3072x1024_d0 : Shape.Concatenates [S1024x1024, S1024x1024, S1024x1024] S3072x1024 0
  concatenates_S1024_S1024_S1024_S3072_d0 : Shape.Concatenates [S1024, S1024, S1024] S3072 0
  transposes_S3072x1024_S1024x3072_1_0 : S3072x1024.Transposes [1, 0] S1024x3072
  bcast_S3072_S1x3072_1 : S3072.BroadcastsInDim S1x3072 (![1] : Fin 1 → Fin S1x3072.rank)
  bcast_S1x3072_S32768x3072_0_1 : S1x3072.BroadcastsInDim S32768x3072 (![0, 1] : Fin 2 → Fin S32768x3072.rank)
  slices_S32768x3072_S32768x1024_0_0 : S32768x3072.Slices ![0, 0] S32768x1024
  slices_S32768x3072_S32768x1024_0_1024 : S32768x3072.Slices ![0, 1024] S32768x1024
  slices_S32768x3072_S32768x1024_0_2048 : S32768x3072.Slices ![0, 2048] S32768x1024
  bcast_S_S32768x1024 : S_.BroadcastsInDim S32768x1024 (![] : Fin 0 → Fin S32768x1024.rank)
  dot_S32768x1024_S1024x3072_S32768x3072_1_0_0_1_n_n_wf : DotDims.WF S32768x1024 S1024x3072 S32768x3072 [1] [0] [0] [1] [] []

variable [Facts₀]

def dot_S32768x1024_S1024x3072_S32768x3072_1_0_0_1_n_n : DotDims S32768x1024 S1024x3072 S32768x3072 where
  lhsContracting := [1]
  rhsContracting := [0]
  lhsNonContracting := [0]
  rhsNonContracting := [1]
  lhsBatch := []
  rhsBatch := []
  wf := dot_S32768x1024_S1024x3072_S32768x3072_1_0_0_1_n_n_wf

class Facts : Prop extends Facts₀ where

variable [Facts]
-- ==== Proof.FrameBits.lean ====
/-
  The frame of the GRU-cell program as printed: its ten host operations (four three-way concatenations, two
  reshapes, two format changes, two transpositions) run, then its one pallas_call over 128 row tiles of 256 rows, and
  every argument array ends as it began.

  What the region finds (`V`): the fourteen arguments untouched, since every host operation writes a fresh buffer.
  What each grid point does: it loads its row tile of `x` and of `h`, the two resident weight matrices and the two
  bias rows, reads (and ignores) the output tile's staging buffer, and overwrites that whole buffer with ONE value,
  the body's arithmetic (`Gen.k0_pay1`) of what it loaded. So after point `t` the six input buffers hold their blocks
  still and the output buffer holds `tile` of the six input blocks; the pipeline writes that tile back to rows
  `256 t … 256 t + 255` of the result.  Stated at any float instance `F`.
-/
import proofs.«170579_j82231443849805_1_alg».proof.Proof.Gen.Kernel.Launch
import proofs.«170579_j82231443849805_1_alg».proof.Proof.Gen.Kernel.Skeleton
import proofs.«170579_j82231443849805_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the launch contents after the ten host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results `%0 … %9` is found as launched: each host operation writes its own
    result buffer and nothing else. -/
theorem V_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.unary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)
theorem V_main_arg3 (c : Dev nD) : V m c main_arg3 = m ((c : Thread nD τ).loc main_arg3) := V_of_unwritten m c _ (by decide)
theorem V_main_arg4 (c : Dev nD) : V m c main_arg4 = m ((c : Thread nD τ).loc main_arg4) := V_of_unwritten m c _ (by decide)
theorem V_main_arg5 (c : Dev nD) : V m c main_arg5 = m ((c : Thread nD τ).loc main_arg5) := V_of_unwritten m c _ (by decide)
theorem V_main_arg6 (c : Dev nD) : V m c main_arg6 = m ((c : Thread nD τ).loc main_arg6) := V_of_unwritten m c _ (by decide)
theorem V_main_arg7 (c : Dev nD) : V m c main_arg7 = m ((c : Thread nD τ).loc main_arg7) := V_of_unwritten m c _ (by decide)
theorem V_main_arg8 (c : Dev nD) : V m c main_arg8 = m ((c : Thread nD τ).loc main_arg8) := V_of_unwritten m c _ (by decide)
theorem V_main_arg9 (c : Dev nD) : V m c main_arg9 = m ((c : Thread nD τ).loc main_arg9) := V_of_unwritten m c _ (by decide)
theorem V_main_arg10 (c : Dev nD) : V m c main_arg10 = m ((c : Thread nD τ).loc main_arg10) := V_of_unwritten m c _ (by decide)
theorem V_main_arg11 (c : Dev nD) : V m c main_arg11 = m ((c : Thread nD τ).loc main_arg11) := V_of_unwritten m c _ (by decide)
theorem V_main_arg12 (c : Dev nD) : V m c main_arg12 = m ((c : Thread nD τ).loc main_arg12) := V_of_unwritten m c _ (by decide)
theorem V_main_arg13 (c : Dev nD) : V m c main_arg13 = m ((c : Thread nD τ).loc main_arg13) := V_of_unwritten m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    (the row tiles of `x` and `h`, every point) or left it from the first point (the resident weights and biases, whose
    block index never moves), provided the body leaves the block in place.  One statement per input window: the
    block's shape is the window's own. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- In a final state with every staged array at what the pipeline computes and every other buffer as the region found it,
    the fourteen arguments are unchanged: `x` and `h` are staged inputs, never written back; the twelve weights and biases
    are staged by no window. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to the pipeline's post is a run leaving the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept m dats hA r h c) h

/-! ## The body's accesses: every load and the one store take the whole buffer -/

abbrev rTile : Rect S256x1024 := Rect.unit (s := S256x1024) ![0, 0] S256x1024.size inb_S256x1024_S256x1024_0_0
abbrev rWeights : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

/-- The output tile's staging buffer after the body, from the six input blocks: its one store, of the body's
    arithmetic of the six loads. -/
def tile (x0 x1 : Vec F S256x1024 .f32) (x2 x3 : Vec F S1024x3072 .bf16) (x4 x5 : Vec F S1x3072 .f32) : Vec F S256x1024 .f32 :=
  View.canon [⟨rTile, k0_pay1 (View.ld x0 rTile) (View.ld x1 rTile) (View.ld x2 rWeights) (View.ld x4 rBias) (View.ld x3 rWeights) (View.ld x5 rBias)⟩]

/-- The one store covers the buffer. -/
theorem tile_cover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The kernel function on whole staging buffers, the six inputs' at contents `xW` and the output's at anything, runs
    to its end leaving the inputs' as they were and the output's at `tile` of them. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x3072 .bf16) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S256x1024 .f32) (harg7 : arg7.IsWhole)
    (x0 x1 : Vec F S256x1024 .f32) (x2 x3 : Vec F S1024x3072 .bf16) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tile x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-! ## The pipeline's proof data -/

/-- On core `c`: the arrays as the region finds them; after the body at point `t` each input's buffer at its block and
    the output's at `tile` of the six input blocks; the invariant the plain one (the scoped rest and the generator
    register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = tile (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d
theorem before0_5 (c : Dev nD) (t : Fin cfg0.N) (d) : (dats m 0 c).before 5 t d = iblk m c 5 t :=
  before_in5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the kernel function's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each staged array holds what the pipeline computes from the proof data and every other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its fourteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frm

end
-- ==== Proof.FrameIdeal.lean ====
/-
  The frame of the idealized GRU-cell program: its ten host operations (four three-way concatenations, two
  reshapes, two format changes, two transpositions) run, then its one pallas_call over 128 row tiles of 256 rows, and
  every argument array ends as it began.

  What the region finds (`V`): the fourteen arguments untouched, since every host operation writes a fresh buffer.
  What each grid point does: it loads its row tile of `x` and of `h`, the two resident weight matrices and the two
  bias rows, reads (and ignores) the output tile's staging buffer, and overwrites that whole buffer with ONE value,
  the body's arithmetic (`Gen.k0_pay1`) of what it loaded. So after point `t` the six input buffers hold their blocks
  still and the output buffer holds `tile` of the six input blocks; the pipeline writes that tile back to rows
  `256 t … 256 t + 255` of the result.  Stated at any float instance `F`.
-/
import proofs.«170579_j82231443849805_1_alg».proof.Proof.Gen.KernelIdeal.Launch
import proofs.«170579_j82231443849805_1_alg».proof.Proof.Gen.KernelIdeal.Skeleton
import proofs.«170579_j82231443849805_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- The core's buffers when the region is entered: the launch contents after the ten host operations. -/
abbrev V (c : Dev nD) (b : Ref sig .tc) : Buf (Elt F) ((c : Thread nD τ).loc b) := StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the ten results `%0 … %9` is found as launched: each host operation writes its own
    result buffer and nothing else. -/
theorem V_of_unwritten (c : Dev nD) (b : Ref sig .tc)
    (hb : b ≠ main_v0 ∧ b ≠ main_v1 ∧ b ≠ main_v2 ∧ b ≠ main_v3 ∧ b ≠ main_v4 ∧ b ≠ main_v5 ∧ b ≠ main_v6 ∧ b ≠ main_v7
      ∧ b ≠ main_v8 ∧ b ≠ main_v9) :
    V m c b = m ((c : Thread nD τ).loc b) := by
  obtain ⟨h0, h1, h2, h3, h4, h5, h6, h7, h8, h9⟩ := hb
  refine StableHlo.after_of_forall_not_mem (b := Proc.devRef .tc b) _ _ (List.forall_iff_forall_mem.mp ?_)
  simp only [hostOps0, List.Forall, StableHlo.unary_writes, StableHlo.reshape_writes, StableHlo.nary_writes, Finset.mem_singleton]
  exact ⟨StableHlo.devRef_ne_of_ne h0, StableHlo.devRef_ne_of_ne h1, StableHlo.devRef_ne_of_ne h2, StableHlo.devRef_ne_of_ne h3,
    StableHlo.devRef_ne_of_ne h4, StableHlo.devRef_ne_of_ne h5, StableHlo.devRef_ne_of_ne h6, StableHlo.devRef_ne_of_ne h7,
    StableHlo.devRef_ne_of_ne h8, StableHlo.devRef_ne_of_ne h9⟩

theorem V_main_arg0 (c : Dev nD) : V m c main_arg0 = m ((c : Thread nD τ).loc main_arg0) := V_of_unwritten m c _ (by decide)
theorem V_main_arg1 (c : Dev nD) : V m c main_arg1 = m ((c : Thread nD τ).loc main_arg1) := V_of_unwritten m c _ (by decide)
theorem V_main_arg2 (c : Dev nD) : V m c main_arg2 = m ((c : Thread nD τ).loc main_arg2) := V_of_unwritten m c _ (by decide)
theorem V_main_arg3 (c : Dev nD) : V m c main_arg3 = m ((c : Thread nD τ).loc main_arg3) := V_of_unwritten m c _ (by decide)
theorem V_main_arg4 (c : Dev nD) : V m c main_arg4 = m ((c : Thread nD τ).loc main_arg4) := V_of_unwritten m c _ (by decide)
theorem V_main_arg5 (c : Dev nD) : V m c main_arg5 = m ((c : Thread nD τ).loc main_arg5) := V_of_unwritten m c _ (by decide)
theorem V_main_arg6 (c : Dev nD) : V m c main_arg6 = m ((c : Thread nD τ).loc main_arg6) := V_of_unwritten m c _ (by decide)
theorem V_main_arg7 (c : Dev nD) : V m c main_arg7 = m ((c : Thread nD τ).loc main_arg7) := V_of_unwritten m c _ (by decide)
theorem V_main_arg8 (c : Dev nD) : V m c main_arg8 = m ((c : Thread nD τ).loc main_arg8) := V_of_unwritten m c _ (by decide)
theorem V_main_arg9 (c : Dev nD) : V m c main_arg9 = m ((c : Thread nD τ).loc main_arg9) := V_of_unwritten m c _ (by decide)
theorem V_main_arg10 (c : Dev nD) : V m c main_arg10 = m ((c : Thread nD τ).loc main_arg10) := V_of_unwritten m c _ (by decide)
theorem V_main_arg11 (c : Dev nD) : V m c main_arg11 = m ((c : Thread nD τ).loc main_arg11) := V_of_unwritten m c _ (by decide)
theorem V_main_arg12 (c : Dev nD) : V m c main_arg12 = m ((c : Thread nD τ).loc main_arg12) := V_of_unwritten m c _ (by decide)
theorem V_main_arg13 (c : Dev nD) : V m c main_arg13 = m ((c : Thread nD τ).loc main_arg13) := V_of_unwritten m c _ (by decide)

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, whether the pipeline fetched it there
    (the row tiles of `x` and `h`, every point) or left it from the first point (the resident weights and biases, whose
    block index never moves), provided the body leaves the block in place.  One statement per input window: the
    block's shape is the window's own. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run to the pipeline's post -/

/-- In a final state with every staged array at what the pipeline computes and every other buffer as the region found it,
    the fourteen arguments are unchanged: `x` and `h` are staged inputs, never written back; the twelve weights and biases
    are staged by no window. -/
theorem kept (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13) :=
  ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c)⟩

/-- So a run to the pipeline's post is a run leaving the arguments unchanged. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => kept m dats hA r h c) h

/-! ## The body's accesses: every load and the one store take the whole buffer -/

abbrev rTile : Rect S256x1024 := Rect.unit (s := S256x1024) ![0, 0] S256x1024.size inb_S256x1024_S256x1024_0_0
abbrev rWeights : Rect S1024x3072 := Rect.unit (s := S1024x3072) ![0, 0] S1024x3072.size inb_S1024x3072_S1024x3072_0_0
abbrev rBias : Rect S1x3072 := Rect.unit (s := S1x3072) ![0, 0] S1x3072.size inb_S1x3072_S1x3072_0_0

/-- The output tile's staging buffer after the body, from the six input blocks: its one store, of the body's
    arithmetic of the six loads. -/
def tile (x0 x1 : Vec F S256x1024 .f32) (x2 x3 : Vec F S1024x3072 .bf16) (x4 x5 : Vec F S1x3072 .f32) : Vec F S256x1024 .f32 :=
  View.canon [⟨rTile, k0_pay1 (View.ld x0 rTile) (View.ld x1 rTile) (View.ld x2 rWeights) (View.ld x4 rBias) (View.ld x3 rWeights) (View.ld x5 rBias)⟩]

/-- The one store covers the buffer. -/
theorem tile_cover (p0 : Vec F S256x1024 .f32) (y : S256x1024.Idx) :
    ∃ pc ∈ ([⟨rTile, p0⟩] : List (View.Piece (Elt F) S256x1024 .f32)), y ∈ pc.1.set :=
  View.cover_of_tiled [⟨rTile, p0⟩] S256x1024.size (by rfl) y

/-! ## The body's triple -/

set_option maxHeartbeats 1000000 in
/-- The kernel function on whole staging buffers, the six inputs' at contents `xW` and the output's at anything, runs
    to its end leaving the inputs' as they were and the output's at `tile` of them. -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S1024x3072 .bf16) (harg3 : arg3.IsWhole) (arg4 : Memref sig .tc .vmem S1024x3072 .bf16) (harg4 : arg4.IsWhole)
    (arg5 : Memref sig .tc .vmem S1x3072 .f32) (harg5 : arg5.IsWhole) (arg6 : Memref sig .tc .vmem S1x3072 .f32) (harg6 : arg6.IsWhole)
    (arg7 : Memref sig .tc .vmem S256x1024 .f32) (harg7 : arg7.IsWhole)
    (x0 x1 : Vec F S256x1024 .f32) (x2 x3 : Vec F S1024x3072 .bf16) (x4 x5 : Vec F S1x3072 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (tile x0 x1 x2 x3 x4 x5)) -∗ K ⟨⟩))
      ⊢ wp frame (wpE (defs₀ (F := F)) Variants.none c none) E (cc0__gru_kernel i arg1 harg1 arg2 harg2 arg3 harg3 arg4 harg4 arg5 harg5 arg6 harg6 arg7 harg7) K := by
  simp only [cc0__gru_kernel_eq_skeleton]; unfold cc0__gru_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (tile_cover _)

/-! ## The pipeline's proof data -/

/-- On core `c`: the arrays as the region finds them; after the body at point `t` each input's buffer at its block and
    the output's at `tile` of the six input blocks; the invariant the plain one (the scoped rest and the generator
    register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tile (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t
    = tile (iblk m c 0 t) (iblk m c 1 t) (iblk m c 2 t) (iblk m c 3 t) (iblk m c 4 t) (iblk m c 5 t) := by dsimp only [dats]

theorem before0_0 (c : Dev nD) (t : Fin cfg0.N) (d) : (dats m 0 c).before 0 t d = iblk m c 0 t :=
  before_in0_of m (dats m 0 c) (A_eq m c 0) (after0_0 m c) t d
theorem before0_1 (c : Dev nD) (t : Fin cfg0.N) (d) : (dats m 0 c).before 1 t d = iblk m c 1 t :=
  before_in1_of m (dats m 0 c) (A_eq m c 1) (after0_1 m c) t d
theorem before0_2 (c : Dev nD) (t : Fin cfg0.N) (d) : (dats m 0 c).before 2 t d = iblk m c 2 t :=
  before_in2_of m (dats m 0 c) (A_eq m c 2) (after0_2 m c) t d
theorem before0_3 (c : Dev nD) (t : Fin cfg0.N) (d) : (dats m 0 c).before 3 t d = iblk m c 3 t :=
  before_in3_of m (dats m 0 c) (A_eq m c 3) (after0_3 m c) t d
theorem before0_4 (c : Dev nD) (t : Fin cfg0.N) (d) : (dats m 0 c).before 4 t d = iblk m c 4 t :=
  before_in4_of m (dats m 0 c) (A_eq m c 4) (after0_4 m c) t d
theorem before0_5 (c : Dev nD) (t : Fin cfg0.N) (d) : (dats m 0 c).before 5 t d = iblk m c 5 t :=
  before_in5_of m (dats m 0 c) (A_eq m c 5) (after0_5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the kernel function's triple applies; the invariant
    and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each staged array holds what the pipeline computes from the proof data and every other buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its fourteen arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frm

end
-- ==== Proof.GruSpec.lean ====
/-
  One step of a gated recurrent cell over a batch, as a function on the extended reals.

  From a row `a` of activations, a weight matrix `WT` with 1024 rows and 3072 columns (the three gates' matrices side
  by side, each transposed) and a bias row `b` of 3072 entries, gate column `g` has the pre-activation
  `∑ k, a k · WT k g + b g`.  With the input-side pre-activations `ir, iz, in` (columns `j`, `1024 + j`, `2048 + j` of
  the input projection) and the hidden-side ones `hr, hz, hn`, the new hidden state at column `j` is
  `(1 − z) · n + z · h j` where `r = σ (ir + hr)`, `z = σ (iz + hz)`, `n = tanh (in + r · hn)`.
  The number of rows is a parameter: the kernel computes the same function on a tile of 256 rows that the reference
  computes on all 32768.
-/
import Idealize.ShloMosaic.PureOps.Ideal
import Idealize.ShloMosaic.Lib.ValueIdx

noncomputable section

namespace Cert.GruSpec

open Idealize.ShloMosaic Idealize.ShloMosaic.ValueIdx

/-- The three gate columns that hidden column `j` reads. -/
abbrev colR (j : Fin 1024) : Fin 3072 := ⟨j.val, by have := j.isLt; omega⟩
abbrev colZ (j : Fin 1024) : Fin 3072 := ⟨1024 + j.val, by have := j.isLt; omega⟩
abbrev colN (j : Fin 1024) : Fin 3072 := ⟨2048 + j.val, by have := j.isLt; omega⟩

/-- Gate column `g`'s pre-activation for row `r`: the row against column `g` of the weights, plus the bias. -/
def pre {n : Nat} (a : (⟨2, ![n, 1024]⟩ : Shape).Idx → EReal) (WT : (⟨2, ![1024, 3072]⟩ : Shape).Idx → EReal)
    (b : (⟨2, ![1, 3072]⟩ : Shape).Idx → EReal) (r : Fin n) (g : Fin 3072) : EReal :=
  (∑ k : Fin 1024, a (ix2 r k) * WT (ix2 k g)) + b (ix2 (0 : Fin 1) g)

/-- The cell's output from the six pre-activations and the previous hidden entry. -/
def combine (ir hr iz hz inn hn hp : EReal) : EReal :=
  (1 - Ideal.logistic (iz + hz)) * Ideal.tanh (inn + Ideal.logistic (ir + hr) * hn) + Ideal.logistic (iz + hz) * hp

/-- The new hidden state at row `r`, column `j`. -/
def cell {n : Nat} (x h : (⟨2, ![n, 1024]⟩ : Shape).Idx → EReal) (WiT WhT : (⟨2, ![1024, 3072]⟩ : Shape).Idx → EReal)
    (bi bh : (⟨2, ![1, 3072]⟩ : Shape).Idx → EReal) (r : Fin n) (j : Fin 1024) : EReal :=
  combine (pre x WiT bi r (colR j)) (pre h WhT bh r (colR j)) (pre x WiT bi r (colZ j)) (pre h WhT bh r (colZ j))
    (pre x WiT bi r (colN j)) (pre h WhT bh r (colN j)) (h (ix2 r j))

/-- The whole result array. -/
def gru {n : Nat} (x h : (⟨2, ![n, 1024]⟩ : Shape).Idx → EReal) (WiT WhT : (⟨2, ![1024, 3072]⟩ : Shape).Idx → EReal)
    (bi bh : (⟨2, ![1, 3072]⟩ : Shape).Idx → EReal) : (⟨2, ![n, 1024]⟩ : Shape).Idx → EReal :=
  fun i => cell x h WiT WhT bi bh (i 0) (i 1)

end Cert.GruSpec

end
-- ==== Proof.TileCell.lean ====
/-
  The kernel body's arithmetic, read at one entry of the tile.

  The body projects the tile's 256 rows of `x` and of `h` through the two resident weight matrices (each a matrix
  product into a zero accumulator, a plain sum over the 1024 contracted columns), adds the bias row broadcast down the
  tile, cuts each projection into its three gate bands of 1024 columns, and combines them entry by entry.  At entry
  `(p, q)` of the tile that is the cell function of the specification on 256 rows, at row `p` and column `q`.
-/
import proofs.«170579_j82231443849805_1_alg».proof.Proof.Gen.KernelIdeal.Skeleton
import proofs.«170579_j82231443849805_1_alg».proof.Proof.GruSpec
import Idealize.ShloMosaic.Lib.Pipeline.Value
import Idealize.ShloMosaic.Lib.ValueIdx
import Idealize.ShloMosaic.Lib.IdealHost
import Idealize.ShloMosaic.PureOps.Ideal.Laws

noncomputable section

namespace Cert.KernelIdeal.TileCell

open Idealize.ShloMosaic Idealize.ShloMosaic.ValueIdx
open Cert.KernelIdeal Cert.KernelIdeal.Gen Cert.GruSpec

/-! ## The matrix product's operand indices -/

theorem lhs_axis0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_axis1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_axis0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_axis1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product into the zero accumulator at entry `(p, g)`: row `p` of the left operand against column `g` of the right. -/
theorem matmul_at (a : FVec Ideal S256x1024 .bf16) (W : FVec Ideal S1024x3072 .bf16) (p : Fin 256) (g : Fin 3072) :
    matmul dot_S256x1024_S1024x3072_S256x3072_1_0_0_1_n_n none a W (constant S256x3072 .f32 0x00000000#32) (ix2 p g)
      = ∑ k : Fin 1024, a (ix2 p k) * W (ix2 k g) := by
  show FloatOps.matmul _ _ _ _ _ _ = _
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p g) ((ValueIdx.contrEquiv1 dot_S256x1024_S1024x3072_S256x3072_1_0_0_1_n_n 1024 rfl rfl).symm k) = ix2 p k := funext fun a => Fin.ext (by
    match a with
    | ⟨0, _⟩ => exact lhs_axis0 _ _
    | ⟨1, _⟩ => exact (lhs_axis1 _ _).trans hk)
  have er : dot_S256x1024_S1024x3072_S256x3072_1_0_0_1_n_n.rhsIdx (ix2 p g) ((ValueIdx.contrEquiv1 dot_S256x1024_S1024x3072_S256x3072_1_0_0_1_n_n 1024 rfl rfl).symm k) = ix2 k g := funext fun a => Fin.ext (by
    match a with
    | ⟨0, _⟩ => exact (rhs_axis0 _ _).trans hk
    | ⟨1, _⟩ => exact rhs_axis1 _ _)
  rw [el, er]

/-! ## The bias row down the tile, and the gate bands -/

/-- The bias row broadcast to the tile reads its column. -/
theorem bias_at (b : FVec Ideal S1x3072 .f32) (p : Fin 256) (g : Fin 3072) :
    broadcastTo S256x3072 b broadcasts_S1x3072_S256x3072 (ix2 p g) = b (ix2 (0 : Fin 1) g) :=
  broadcastTo_apply b broadcasts_S1x3072_S256x3072 (ix2 p g) (ix2 (0 : Fin 1) g) (fun a => match a with
    | ⟨0, _⟩ => by show (0 : Nat) = if S1x3072.size 0 = 1 then 0 else _; rw [if_pos (by decide)]
    | ⟨1, _⟩ => by show g.val = if S1x3072.size 1 = 1 then 0 else _; rw [if_neg (by decide)]; rfl)

/-- The three bands of a projection: columns `q`, `1024 + q`, `2048 + q`. -/
theorem bandR_at (v : FVec Ideal S256x3072 .f32) (p : Fin 256) (q : Fin 1024) :
    extractStridedSlice S256x1024 ![0, 0] v slices_S256x3072_o0_0_S256x1024 (ix2 p q) = v (ix2 p (colR q)) :=
  extractStridedSlice_apply ![0, 0] v slices_S256x3072_o0_0_S256x1024 (ix2 p q) (ix2 p (colR q)) (fun a => match a with
    | ⟨0, _⟩ => by show p.val = 0 + p.val; omega
    | ⟨1, _⟩ => by show q.val = 0 + q.val; omega)
theorem bandZ_at (v : FVec Ideal S256x3072 .f32) (p : Fin 256) (q : Fin 1024) :
    extractStridedSlice S256x1024 ![0, 1024] v slices_S256x3072_o0_1024_S256x1024 (ix2 p q) = v (ix2 p (colZ q)) :=
  extractStridedSlice_apply ![0, 1024] v slices_S256x3072_o0_1024_S256x1024 (ix2 p q) (ix2 p (colZ q)) (fun a => match a with
    | ⟨0, _⟩ => by show p.val = 0 + p.val; omega
    | ⟨1, _⟩ => by show 1024 + q.val = 1024 + q.val; rfl)
theorem bandN_at (v : FVec Ideal S256x3072 .f32) (p : Fin 256) (q : Fin 1024) :
    extractStridedSlice S256x1024 ![0, 2048] v slices_S256x3072_o0_2048_S256x1024 (ix2 p q) = v (ix2 p (colN q)) :=
  extractStridedSlice_apply ![0, 2048] v slices_S256x3072_o0_2048_S256x1024 (ix2 p q) (ix2 p (colN q)) (fun a => match a with
    | ⟨0, _⟩ => by show p.val = 0 + p.val; omega
    | ⟨1, _⟩ => by show 2048 + q.val = 2048 + q.val; rfl)

/-! ## The stored value at an entry -/

/-- Entry `(p, q)` of what the body stores is the cell function on the tile's 256 rows. -/
theorem pay_cell (v0 v2 : Vec Ideal S256x1024 .f32) (v4 v11 : Vec Ideal S1024x3072 .bf16) (v7 v14 : Vec Ideal S1x3072 .f32)
    (p : Fin 256) (q : Fin 1024) :
    k0_pay1 (F := Ideal) v0 v2 v4 v7 v11 v14 (ix2 p q) = cell (n := 256) v0 v2 v4 v11 v7 v14 p q := by
  unfold k0_pay1
  simp only [addf_apply, mulf_apply, subf_apply, broadcast_apply, logistic, tanh, bandR_at, bandZ_at, bandN_at, matmul_at, bias_at,
    shapeCast_self, truncf_apply, Ideal.logistic_def, Ideal.tanh_def, Scalar.ofBits, Ideal.ofBits_def, Ideal.ofBits_one_f32]
  rfl

end Cert.KernelIdeal.TileCell

end
-- ==== Proof.Blocks.lean ====
/-
  From what each grid point writes back to the whole result array of the idealized kernel.

  Grid point `t` writes the tile the body computed to rows `256 t … 256 t + 255` of the result.  The tile is the cell
  function on the point's 256 rows of `x` and `h` (its blocks of the two activations) and on the whole resident weights
  and bias rows (their one block is the whole array); a row `p` of the tile is row `256 t + p` of the arrays, so the tile
  is rows `256 t …` of the cell function on all 32768 rows.  The 128 tiles cover the result (row `i` is in tile
  `i / 256`), so the result array is that one function of the arrays the region found.
-/
import proofs.«170579_j82231443849805_1_alg».proof.Proof.FrameIdeal
import proofs.«170579_j82231443849805_1_alg».proof.Proof.TileCell
import proofs.«170579_j82231443849805_1_alg».proof.Proof.GruSpec
import Idealize.ShloMosaic.Lib.Pipeline.Value

set_option maxRecDepth 16384

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.TileCell Cert.GruSpec

variable (m : (ℓ : Loc nD τ sig) → Buf (Elt Ideal) ℓ) (ρ : Dev nD → PrngReg)

theorem hz : (![0, 0] : Fin 2 → Nat) = fun _ => 0 := funext fun a => by fin_cases a <;> rfl

/-- The result as one function of the arrays the region finds: the cell function on all rows. -/
def result (c : Dev nD) : S32768x1024.Idx → EReal :=
  gru (n := 32768) (V m c main_arg0) (V m c main_arg1) (V m c main_v7) (V m c main_v9) (V m c main_v3) (V m c main_v5)

/-- An entry of the tile the body leaves is the cell function on the tile's rows. -/
theorem tile_at (x0 x1 : Vec Ideal S256x1024 .f32) (x2 x3 : Vec Ideal S1024x3072 .bf16) (x4 x5 : Vec Ideal S1x3072 .f32)
    (p : Fin 256) (q : Fin 1024) :
    tile x0 x1 x2 x3 x4 x5 (ix2 p q) = cell (n := 256) x0 x1 x2 x3 x4 x5 p q := by
  unfold tile
  rw [View.canon_unit_zero hz]
  simp only [View.ld_unit_zero (S := S256x1024) hz, View.ld_unit_zero (S := S1024x3072) hz, View.ld_unit_zero (S := S1x3072) hz]
  exact pay_cell x0 x1 x2 x3 x4 x5 p q

/-- The cell function on a tile whose rows are rows `256 t + p` of the whole arrays, over the same weights and biases,
    is the cell function on the whole arrays at those rows. -/
theorem cell_rows (X H : (⟨2, ![32768, 1024]⟩ : Shape).Idx → EReal) (WiT WhT : (⟨2, ![1024, 3072]⟩ : Shape).Idx → EReal)
    (bi bh : (⟨2, ![1, 3072]⟩ : Shape).Idx → EReal)
    (x0 x1 : (⟨2, ![256, 1024]⟩ : Shape).Idx → EReal) (x2 x3 : (⟨2, ![1024, 3072]⟩ : Shape).Idx → EReal)
    (x4 x5 : (⟨2, ![1, 3072]⟩ : Shape).Idx → EReal)
    (tv : Nat) (htv : tv < 128) (p : Fin 256) (q : Fin 1024)
    (h0 : ∀ (p : Fin 256) (k : Fin 1024), x0 (ix2 p k) = X (ix2 (⟨256 * tv + p.val, by have := p.isLt; omega⟩ : Fin 32768) k))
    (h1 : ∀ (p : Fin 256) (k : Fin 1024), x1 (ix2 p k) = H (ix2 (⟨256 * tv + p.val, by have := p.isLt; omega⟩ : Fin 32768) k))
    (h2 : x2 = WiT) (h3 : x3 = WhT) (h4 : x4 = bi) (h5 : x5 = bh) :
    cell (n := 256) x0 x1 x2 x3 x4 x5 p q
      = cell (n := 32768) X H WiT WhT bi bh (⟨256 * tv + p.val, by have := p.isLt; omega⟩ : Fin 32768) q := by
  subst h2 h3 h4 h5
  unfold cell pre
  simp only [h0, h1]

/-- Where the windows' blocks sit at grid point `t`: the two activations' and the result's at block row `t`, the resident
    operands' at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What grid point `t` writes back is block `t` of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  obtain ⟨e00, e01, e10, e11, e20, e21, e30, e31, e40, e41, e50, e51, e60, e61⟩ := idx_facts t
  have ht : t.val < 128 := lt_of_lt_of_eq t.isLt N_0
  funext j
  obtain ⟨p, q, rfl⟩ : ∃ (p : Fin 256) (q : Fin 1024), j = ix2 p q := ⟨j 0, j 1, eq_ix2 j⟩
  show tile (iblk m c 0 t) (iblk m c 1 t) (iblk m c 2 t) (iblk m c 3 t) (iblk m c 4 t) (iblk m c 5 t) (ix2 p q)
    = result m c (((cfg0.win 6).blk t).view.emb (ix2 p q))
  refine (tile_at _ _ _ _ _ _ p q).trans ?_
  refine (cell_rows (V m c main_arg0) (V m c main_arg1) (V m c main_v7) (V m c main_v9) (V m c main_v3) (V m c main_v5)
    _ _ _ _ _ _ t.val ht p q ?_ ?_ ?_ ?_ ?_ ?_).trans ?_
  · intro p k
    show V m c main_arg0 (((cfg0.win 0).blk t).view.emb (ix2 p k)) = V m c main_arg0 _
    refine congrArg _ (funext fun a => Fin.ext ?_)
    match a with
    | ⟨0, _⟩ => show win0_0.index t (0 : Fin 2) * 256 + 1 * p.val = 256 * t.val + p.val; omega
    | ⟨1, _⟩ => show win0_0.index t (1 : Fin 2) * 1024 + 1 * k.val = k.val; omega
  · intro p k
    show V m c main_arg1 (((cfg0.win 1).blk t).view.emb (ix2 p k)) = V m c main_arg1 _
    refine congrArg _ (funext fun a => Fin.ext ?_)
    match a with
    | ⟨0, _⟩ => show win0_1.index t (0 : Fin 2) * 256 + 1 * p.val = 256 * t.val + p.val; omega
    | ⟨1, _⟩ => show win0_1.index t (1 : Fin 2) * 1024 + 1 * k.val = k.val; omega
  · funext y
    show V m c main_v7 (((cfg0.win 2).blk t).view.emb y) = V m c main_v7 y
    refine congrArg _ (funext fun a => Fin.ext ?_)
    match a with
    | ⟨0, _⟩ => show win0_2.index t (0 : Fin 2) * 1024 + 1 * (y 0).val = (y 0).val; omega
    | ⟨1, _⟩ => show win0_2.index t (1 : Fin 2) * 3072 + 1 * (y 1).val = (y 1).val; omega
  · funext y
    show V m c main_v9 (((cfg0.win 3).blk t).view.emb y) = V m c main_v9 y
    refine congrArg _ (funext fun a => Fin.ext ?_)
    match a with
    | ⟨0, _⟩ => show win0_3.index t (0 : Fin 2) * 1024 + 1 * (y 0).val = (y 0).val; omega
    | ⟨1, _⟩ => show win0_3.index t (1 : Fin 2) * 3072 + 1 * (y 1).val = (y 1).val; omega
  · funext y
    show V m c main_v3 (((cfg0.win 4).blk t).view.emb y) = V m c main_v3 y
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 3072 + 1 * (y 1).val = (y 1).val; omega
  · funext y
    show V m c main_v5 (((cfg0.win 5).blk t).view.emb y) = V m c main_v5 y
    refine congrArg _ (funext fun a => Fin.ext ?_)
    match a with
    | ⟨0, _⟩ => show win0_5.index t (0 : Fin 2) * 1 + 1 * (y 0).val = (y 0).val; omega
    | ⟨1, _⟩ => show win0_5.index t (1 : Fin 2) * 3072 + 1 * (y 1).val = (y 1).val; omega
  · have he : ((cfg0.win 6).blk t).view.emb (ix2 p q)
        = ix2 (⟨256 * t.val + p.val, by have := p.isLt; omega⟩ : Fin 32768) q := funext fun a => Fin.ext (by
      match a with
      | ⟨0, _⟩ => show win0_6.index t (0 : Fin 2) * 256 + 1 * p.val = 256 * t.val + p.val; omega
      | ⟨1, _⟩ => show win0_6.index t (1 : Fin 2) * 1024 + 1 * q.val = q.val; omega)
    rw [he]
    rfl

/-- An index of the result is in point `t`'s block iff each coordinate is in the block's range. -/
theorem mem_blk (t : Fin cfg0.N) (i : S32768x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v10).slice (win0_6.rect t)).set ↔ _
  rw [View.set_slice_whole, Rect.mem_set_unit]
  exact Iff.rfl

/-- Every entry of the result is in the block of the point that owns its row. -/
theorem cover (i : S32768x1024.Idx) : ∃ t : Fin cfg0.N, (cfg0.win 6).flush t = true ∧ i ∈ ((cfg0.win 6).blk t).view.set := by
  have hi0 : (i 0).val < 32768 := (i 0).isLt
  have hi1 : (i 1).val < 1024 := (i 1).isLt
  have hlt : (i 0).val / 256 < cfg0.N := by rw [show cfg0.N = 128 from N_0]; omega
  refine ⟨⟨(i 0).val / 256, hlt⟩, flush0_6 _, ?_⟩
  rw [mem_blk]
  obtain ⟨-, -, -, -, -, -, -, -, -, -, -, -, e60, e61⟩ := idx_facts ⟨(i 0).val / 256, hlt⟩
  intro a
  match a with
  | ⟨0, _⟩ =>
    show win0_6.index ⟨(i 0).val / 256, hlt⟩ (0 : Fin 2) * 256 ≤ (i 0).val ∧ (i 0).val < win0_6.index ⟨(i 0).val / 256, hlt⟩ (0 : Fin 2) * 256 + 256
    rw [e60]; show (i 0).val / 256 * 256 ≤ (i 0).val ∧ (i 0).val < (i 0).val / 256 * 256 + 256; omega
  | ⟨1, _⟩ =>
    show win0_6.index ⟨(i 0).val / 256, hlt⟩ (1 : Fin 2) * 1024 ≤ (i 1).val ∧ (i 1).val < win0_6.index ⟨(i 0).val / 256, hlt⟩ (1 : Fin 2) * 1024 + 1024
    rw [e61]; omega

/-- The result array after the run. -/
theorem final (c : Dev nD) : (dats m 0 c).arrAt 6 cfg0.N = result m c :=
  (dats m 0 c).arrAt_eq_of_cover 6 (result m c) (fun t _ => flushed_eq m c t) cover

/-- The idealized kernel's run: the result array ends at `result`, the arguments unchanged. -/
theorem run : θ_run defs (onTc (τ := τ) (main (F := Ideal))) ⟨m, fun _ => 0, ρ⟩ fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 6).trans (final m c), kept m (dats m) (A_eq m) r h c⟩) (run_main m ρ)

end Cert.KernelIdeal.Blocks

end
-- ==== Proof.LibNary3.lean ====
/-
  A host operation over a LITERAL family of three references (a concatenation of three operands): its result with each
  operand's contents at its own reference, so that rewriting the operands' contents can go on under it; and the one-pass
  rewriting of a straight line's results with that rule added.
-/
import Idealize.ShloMosaic.Lib.StableHlo.Run

noncomputable section

namespace Idealize.ShloMosaic.StableHlo

variable {nD : Nat} {τ : Topo} {sig : RefSig} {Val : EltTy → Type}

/-- The three-operand operation's result at its result buffer: its function of the three operands' contents, each read
    at its own reference. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference left out of the rule's key, for use as a simplification rule. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The results of a straight line of host operations by one simplification pass, three-operand operations included. -/
macro "after_results_simp3" : tactic =>
  `(tactic| (simp (disch := decide) only [after_cons, after_nil,
      nullary_result', unary_result', binary_result', ternary_result', quaternary_result', reshape_result', nary4_result',
      nary3_result', nary_result', unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.Prefix.lean ====
/-
  What the region finds in the four buffers the host operations prepare for it.

  The three input-side weight matrices stacked (3072 rows of 1024), changed to the matrix unit's format and transposed,
  are the resident operand of the first product; the hidden-side three likewise for the second; the three input-side
  bias vectors joined end to end (3072 entries) and laid out as one row are the first bias row, the hidden-side three
  the second.  Each is read off the host operations' composition, at any float instance.
-/
import proofs.«170579_j82231443849805_1_alg».proof.Proof.FrameIdeal
import proofs.«170579_j82231443849805_1_alg».proof.Proof.LibNary3

noncomputable section

namespace Cert.KernelIdeal.Prefix

open Idealize.ShloMosaic Idealize.ShloMosaic.TcCoe Idealize.SL.Sem Idealize.ShloMosaic.StableHlo
open Cert.KernelIdeal Cert.KernelIdeal.Gen Cert.KernelIdeal.Frm

variable {F : FTy → Type} [FloatOps F]
variable (m : (ℓ : Loc nD τ sig) → Buf (Elt F) ℓ)

/-- The input-side weights stacked: reset, update, candidate. -/
def stackWi (c : Dev nD) : FVec F S3072x1024 .f32 :=
  concatenate S3072x1024 0 [⟨S1024x1024, m ((c : Thread nD τ).loc main_arg2)⟩, ⟨S1024x1024, m ((c : Thread nD τ).loc main_arg4)⟩,
    ⟨S1024x1024, m ((c : Thread nD τ).loc main_arg6)⟩] concatenates_S1024x1024_S1024x1024_S1024x1024_S3072x1024_d0
/-- The hidden-side weights stacked. -/
def stackWh (c : Dev nD) : FVec F S3072x1024 .f32 :=
  concatenate S3072x1024 0 [⟨S1024x1024, m ((c : Thread nD τ).loc main_arg3)⟩, ⟨S1024x1024, m ((c : Thread nD τ).loc main_arg5)⟩,
    ⟨S1024x1024, m ((c : Thread nD τ).loc main_arg7)⟩] concatenates_S1024x1024_S1024x1024_S1024x1024_S3072x1024_d0
/-- The input-side biases joined. -/
def joinBi (c : Dev nD) : FVec F S3072 .f32 :=
  concatenate S3072 0 [⟨S1024, m ((c : Thread nD τ).loc main_arg8)⟩, ⟨S1024, m ((c : Thread nD τ).loc main_arg10)⟩,
    ⟨S1024, m ((c : Thread nD τ).loc main_arg12)⟩] concatenates_S1024_S1024_S1024_S3072_d0
/-- The hidden-side biases joined. -/
def joinBh (c : Dev nD) : FVec F S3072 .f32 :=
  concatenate S3072 0 [⟨S1024, m ((c : Thread nD τ).loc main_arg9)⟩, ⟨S1024, m ((c : Thread nD τ).loc main_arg11)⟩,
    ⟨S1024, m ((c : Thread nD τ).loc main_arg13)⟩] concatenates_S1024_S1024_S1024_S3072_d0

/-- The first product's resident operand. -/
theorem V_main_v7 (c : Dev nD) : (V m c main_v7 : S1024x3072.Idx → Elt F .bf16)
    = transpose S1024x3072 [1, 0] (truncf .bf16 (stackWi m c) bitsLt_bf16_f32) transposes_S3072x1024_S1024x3072_1_0 := by
  dsimp only [V, hostOps0]
  after_results_simp3
  rfl

/-- The second product's resident operand. -/
theorem V_main_v9 (c : Dev nD) : (V m c main_v9 : S1024x3072.Idx → Elt F .bf16)
    = transpose S1024x3072 [1, 0] (truncf .bf16 (stackWh m c) bitsLt_bf16_f32) transposes_S3072x1024_S1024x3072_1_0 := by
  dsimp only [V, hostOps0]
  after_results_simp3
  simp only [Matrix.cons_val_zero, Matrix.cons_val_one, Matrix.cons_val_two, Matrix.head_cons, Matrix.tail_cons]
  try after_results_simp3
  rfl

/-- The first bias row. -/
theorem V_main_v3 (c : Dev nD) : (V m c main_v3 : S1x3072.Idx → Elt F .f32)
    = shapeCast S1x3072 (joinBi m c) shapeCasts_S3072_S1x3072 := by
  dsimp only [V, hostOps0]
  after_results_simp3
  simp only [Matrix.cons_val_zero, Matrix.cons_val_one, Matrix.cons_val_two, Matrix.head_cons, Matrix.tail_cons]
  try after_results_simp3
  rfl

/-- The second bias row. -/
theorem V_main_v5 (c : Dev nD) : (V m c main_v5 : S1x3072.Idx → Elt F .f32)
    = shapeCast S1x3072 (joinBh m c) shapeCasts_S3072_S1x3072 := by
  dsimp only [V, hostOps0]
  after_results_simp3
  simp only [Matrix.cons_val_zero, Matrix.cons_val_one, Matrix.cons_val_two, Matrix.head_cons, Matrix.tail_cons]
  try after_results_simp3
  rfl

end Cert.KernelIdeal.Prefix

end
-- ==== Proof.RefCell.lean ====
/-
  The reference, read at one entry, is the cell function of the specification on all 32768 rows.

  The reference projects `x` and `h` through the transposed stacks of weights (a host contraction: at the exact instance
  the plain sum over the 1024 contracted columns), adds the joined biases broadcast down the rows, slices the three gate
  bands, and writes the sigmoid out as `1 / (1 + e^(−s))`, which on the extended reals is the logistic function itself.
  The transposed stacks and the bias rows are left as the reference builds them: the kernel's program builds the same.
-/
import proofs.«170579_j82231443849805_1_alg».proof.Proof.Gen.ReferenceIdeal.Read
import proofs.«170579_j82231443849805_1_alg».proof.Proof.GruSpec
import Idealize.ShloMosaic.Lib.IdealHost

noncomputable section

namespace Cert.ReferenceIdeal.RefCell

open Idealize.ShloMosaic Idealize.ShloMosaic.ValueIdx
open Cert.ReferenceIdeal Cert.ReferenceIdeal.Gen Cert.ReferenceIdeal.Read Cert.GruSpec

/-- A weight matrix, the activations, a bias vector: as the reference's stages take them. -/
abbrev Mat : Type := (⟨S1024x1024, .f32⟩ : BufTy).Contents (Elt Ideal)
abbrev Act : Type := (⟨S32768x1024, .f32⟩ : BufTy).Contents (Elt Ideal)
abbrev Bia : Type := (⟨S1024, .f32⟩ : BufTy).Contents (Elt Ideal)

/-- The input projection at row `r`, gate column `g`. -/
theorem gi_at (x0 : Act) (x2 x4 x6 : Mat) (x8 x10 x12 : Bia) (r : Fin 32768) (g : Fin 3072) :
    val_main_v8 (F := Ideal) x0 x2 x4 x6 x8 x10 x12 (ix2 r g)
      = pre (n := 32768) x0 (val_main_v4 (F := Ideal) x2 x4 x6) (val_main_v6 (F := Ideal) x8 x10 x12) r g := by
  rw [val_main_v8_apply, val_main_v5_apply, val_main_v7_apply]
  have e1 : ∀ k, lidx_main_v5 (ix2 r g) k = ix2 r k := fun k => funext fun a => Fin.ext (by
    match a with
    | ⟨0, _⟩ => rfl
    | ⟨1, _⟩ => rfl)
  have e2 : ∀ k, ridx_main_v5 (ix2 r g) k = ix2 k g := fun k => funext fun a => Fin.ext (by
    match a with
    | ⟨0, _⟩ => rfl
    | ⟨1, _⟩ => rfl)
  have e3 : idx_main_v7 (ix2 r g) = ix2 (0 : Fin 1) g := funext fun a => Fin.ext (by
    match a with
    | ⟨0, _⟩ => rfl
    | ⟨1, _⟩ => rfl)
  simp only [e1, e2, e3]
  rfl

/-- The hidden projection at row `r`, gate column `g`. -/
theorem gh_at (x1 : Act) (x3 x5 x7 : Mat) (x9 x11 x13 : Bia) (r : Fin 32768) (g : Fin 3072) :
    val_main_v13 (F := Ideal) x1 x3 x5 x7 x9 x11 x13 (ix2 r g)
      = pre (n := 32768) x1 (val_main_v9 (F := Ideal) x3 x5 x7) (val_main_v11 (F := Ideal) x9 x11 x13) r g := by
  rw [val_main_v13_apply, val_main_v10_apply, val_main_v12_apply]
  have e1 : ∀ k, lidx_main_v10 (ix2 r g) k = ix2 r k := fun k => funext fun a => Fin.ext (by
    match a with
    | ⟨0, _⟩ => rfl
    | ⟨1, _⟩ => rfl)
  have e2 : ∀ k, ridx_main_v10 (ix2 r g) k = ix2 k g := fun k => funext fun a => Fin.ext (by
    match a with
    | ⟨0, _⟩ => rfl
    | ⟨1, _⟩ => rfl)
  have e3 : idx_main_v12 (ix2 r g) = ix2 (0 : Fin 1) g := funext fun a => Fin.ext (by
    match a with
    | ⟨0, _⟩ => rfl
    | ⟨1, _⟩ => rfl)
  simp only [e1, e2, e3]
  rfl

/-! The gate bands of the two projections at row `r`, hidden column `j`. -/

theorem bandR_idx (r : Fin 32768) (j : Fin 1024) : idx_main_v14 (ix2 r j) = ix2 r (colR j) := funext fun a => Fin.ext (by
  match a with
  | ⟨0, _⟩ => rfl
  | ⟨1, _⟩ => rfl)
theorem bandZ_idx (r : Fin 32768) (j : Fin 1024) : idx_main_v15 (ix2 r j) = ix2 r (colZ j) := funext fun a => Fin.ext (by
  match a with
  | ⟨0, _⟩ => rfl
  | ⟨1, _⟩ => rfl)
theorem bandN_idx (r : Fin 32768) (j : Fin 1024) : idx_main_v16 (ix2 r j) = ix2 r (colN j) := funext fun a => Fin.ext (by
  match a with
  | ⟨0, _⟩ => rfl
  | ⟨1, _⟩ => rfl)
theorem bandR_idx' (r : Fin 32768) (j : Fin 1024) : idx_main_v17 (ix2 r j) = ix2 r (colR j) := funext fun a => Fin.ext (by
  match a with
  | ⟨0, _⟩ => rfl
  | ⟨1, _⟩ => rfl)
theorem bandZ_idx' (r : Fin 32768) (j : Fin 1024) : idx_main_v18 (ix2 r j) = ix2 r (colZ j) := funext fun a => Fin.ext (by
  match a with
  | ⟨0, _⟩ => rfl
  | ⟨1, _⟩ => rfl)
theorem bandN_idx' (r : Fin 32768) (j : Fin 1024) : idx_main_v19 (ix2 r j) = ix2 r (colN j) := funext fun a => Fin.ext (by
  match a with
  | ⟨0, _⟩ => rfl
  | ⟨1, _⟩ => rfl)

/-- The reference's result array is the specification's, over the transposed stacks and bias rows it builds. -/
theorem val_is_gru (x0 x1 : Act) (x2 x3 x4 x5 x6 x7 : Mat) (x8 x9 x10 x11 x12 x13 : Bia) :
    val_main_v41 (F := Ideal) x0 x1 x2 x3 x4 x5 x6 x7 x8 x9 x10 x11 x12 x13
      = gru (n := 32768) x0 x1 (val_main_v4 (F := Ideal) x2 x4 x6) (val_main_v9 (F := Ideal) x3 x5 x7)
          (val_main_v6 (F := Ideal) x8 x10 x12) (val_main_v11 (F := Ideal) x9 x11 x13) := by
  funext i
  obtain ⟨r, j, rfl⟩ : ∃ (r : Fin 32768) (j : Fin 1024), i = ix2 r j := ⟨i 0, i 1, eq_ix2 i⟩
  simp only [val_main_v41_apply, val_main_v40_apply, val_main_v39_apply, val_main_v38_apply, val_main_v37_apply, val_main_cst_3_apply,
    val_main_v36_apply, val_main_v35_apply, val_main_v34_apply, val_main_v33_apply, val_main_v32_apply, val_main_cst_2_apply,
    val_main_v31_apply, val_main_v30_apply, val_main_cst_1_apply, val_main_v29_apply, val_main_v28_apply, val_main_v27_apply,
    val_main_v26_apply, val_main_v25_apply, val_main_cst_0_apply, val_main_v24_apply, val_main_v23_apply, val_main_cst_apply,
    val_main_v22_apply, val_main_v21_apply, val_main_v20_apply, val_main_v19_apply, val_main_v18_apply, val_main_v17_apply,
    val_main_v16_apply, val_main_v15_apply, val_main_v14_apply, bandR_idx, bandZ_idx, bandN_idx, bandR_idx', bandZ_idx', bandN_idx',
    gi_at, gh_at, Ideal.addf_def, Ideal.subf_def, Ideal.mulf_def, Ideal.hostDivf_def, Ideal.hostUnary_exp_def, Ideal.hostUnary_tanh_def,
    Ideal.hostNegf_def, Ideal.negf_def, Ideal.ofBits_def, Ideal.ofBits_one_f32]
  unfold gru cell combine Ideal.logistic
  rfl

/-- The run's result term is that array. -/
theorem res_is_gru (m : (ℓ : Loc nD τ sig) → Buf (Elt Ideal) ℓ) (c : Dev nD) :
    Cert.ReferenceIdeal.Value.res_main_v41 m c
      = gru (n := 32768) (m ((c.tc : Thread nD τ).loc main_arg0)) (m ((c.tc : Thread nD τ).loc main_arg1))
          (val_main_v4 (F := Ideal) (m ((c.tc : Thread nD τ).loc main_arg2)) (m ((c.tc : Thread nD τ).loc main_arg4)) (m ((c.tc : Thread nD τ).loc main_arg6)))
          (val_main_v9 (F := Ideal) (m ((c.tc : Thread nD τ).loc main_arg3)) (m ((c.tc : Thread nD τ).loc main_arg5)) (m ((c.tc : Thread nD τ).loc main_arg7)))
          (val_main_v6 (F := Ideal) (m ((c.tc : Thread nD τ).loc main_arg8)) (m ((c.tc : Thread nD τ).loc main_arg10)) (m ((c.tc : Thread nD τ).loc main_arg12)))
          (val_main_v11 (F := Ideal) (m ((c.tc : Thread nD τ).loc main_arg9)) (m ((c.tc : Thread nD τ).loc main_arg11)) (m ((c.tc : Thread nD τ).loc main_arg13))) := by
  rw [val_main_v41_eq]
  exact val_is_gru _ _ _ _ _ _ _ _ _ _ _ _ _ _

end Cert.ReferenceIdeal.RefCell

end
-- ==== Proof.Bridge.lean ====
/-
  The two programs build the same operands, so their results are one array.

  Both stack the three input-side weight matrices and transpose the stack (the kernel's program also changes the stack to
  the matrix unit's format first, which on the extended reals changes nothing), both join the three bias vectors; the
  kernel's program lays the joined vector out as one row by a reshape, the reference by a broadcast along a new leading
  axis of extent one: entry `(0, g)` of either row is entry `g` of the joined vector.  With the arguments agreeing, the
  reference's result term is the kernel's result function.
-/
import proofs.«170579_j82231443849805_1_alg».proof.Proof.Blocks
import proofs.«170579_j82231443849805_1_alg».proof.Proof.Prefix
import proofs.«170579_j82231443849805_1_alg».proof.Proof.RefCell

noncomputable section

namespace Cert.Proof.Bridge

open Idealize.ShloMosaic Idealize.ShloMosaic.TcCoe Idealize.SL.Sem Idealize.ShloMosaic.ValueIdx

/-- A vector of 3072 entries laid out as one row: by a reshape and by a broadcast along a new leading unit axis it is the
    same row. -/
theorem row_of_vector (b : (⟨1, ![3072]⟩ : Shape).Idx → EReal)
    (h1 : (⟨1, ![3072]⟩ : Shape).ShapeCasts ⟨2, ![1, 3072]⟩)
    (h2 : (⟨1, ![3072]⟩ : Shape).BroadcastsInDim ⟨2, ![1, 3072]⟩ ![1]) :
    shapeCast (⟨2, ![1, 3072]⟩ : Shape) b h1 = broadcastInDim (⟨2, ![1, 3072]⟩ : Shape) ![1] h2 b := by
  funext i
  have hi0 : (i 0).val = 0 := by have h : (i 0).val < 1 := (i 0).isLt; omega
  rw [shapeCast_apply b h1 i (ix1 (i 1)) (by
      rw [Shape.rowMajor_val_one, Shape.rowMajor_val_two]
      show (i 1).val = (i 0).val * 3072 + (i 1).val
      omega),
    broadcastInDim_apply ![1] h2 b i (ix1 (i 1)) (fun a => match a with
      | ⟨0, _⟩ => by show (i 1).val = if (3072 : Nat) = 1 then 0 else (i 1).val; rw [if_neg (by decide)])]

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

open Cert.KernelIdeal in
/-- From memories agreeing on the fourteen arguments the reference's result term is the kernel's result function. -/
theorem result_eq (c : Dev Cert.KernelIdeal.nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5))
    (h6 : m' ((c.tc : Thread Cert.ReferenceIdeal.nD Cert.ReferenceIdeal.τ).loc Cert.ReferenceIdeal.main_arg6) = m ((c.tc : Thread nD τ).loc main_arg6))
    (h7 : m' ((c.tc : Thread Cert.ReferenceIdeal.nD Cert.ReferenceIdeal.τ).loc Cert.ReferenceIdeal.main_arg7) = m ((c.tc : Thread nD τ).loc main_arg7))
    (h8 : m' ((c.tc : Thread Cert.ReferenceIdeal.nD Cert.ReferenceIdeal.τ).loc Cert.ReferenceIdeal.main_arg8) = m ((c.tc : Thread nD τ).loc main_arg8))
    (h9 : m' ((c.tc : Thread Cert.ReferenceIdeal.nD Cert.ReferenceIdeal.τ).loc Cert.ReferenceIdeal.main_arg9) = m ((c.tc : Thread nD τ).loc main_arg9))
    (h10 : m' ((c.tc : Thread Cert.ReferenceIdeal.nD Cert.ReferenceIdeal.τ).loc Cert.ReferenceIdeal.main_arg10) = m ((c.tc : Thread nD τ).loc main_arg10))
    (h11 : m' ((c.tc : Thread Cert.ReferenceIdeal.nD Cert.ReferenceIdeal.τ).loc Cert.ReferenceIdeal.main_arg11) = m ((c.tc : Thread nD τ).loc main_arg11))
    (h12 : m' ((c.tc : Thread Cert.ReferenceIdeal.nD Cert.ReferenceIdeal.τ).loc Cert.ReferenceIdeal.main_arg12) = m ((c.tc : Thread nD τ).loc main_arg12))
    (h13 : m' ((c.tc : Thread Cert.ReferenceIdeal.nD Cert.ReferenceIdeal.τ).loc Cert.ReferenceIdeal.main_arg13) = m ((c.tc : Thread nD τ).loc main_arg13)) :
    Cert.ReferenceIdeal.Value.res_main_v41 m' c = Cert.KernelIdeal.Blocks.result m c := by
  rw [Cert.ReferenceIdeal.RefCell.res_is_gru, h0, h1, h2, h3, h4, h5, h6, h7, h8, h9, h10, h11, h12, h13]
  unfold Cert.KernelIdeal.Blocks.result
  rw [Cert.KernelIdeal.Frm.V_main_arg0, Cert.KernelIdeal.Frm.V_main_arg1, Cert.KernelIdeal.Prefix.V_main_v7, Cert.KernelIdeal.Prefix.V_main_v9,
    Cert.KernelIdeal.Prefix.V_main_v3, Cert.KernelIdeal.Prefix.V_main_v5]
  have eb : Cert.ReferenceIdeal.Read.val_main_v6 (F := Ideal) (m ((c.tc : Thread nD τ).loc main_arg8)) (m ((c.tc : Thread nD τ).loc main_arg10)) (m ((c.tc : Thread nD τ).loc main_arg12))
      = shapeCast S1x3072 (Cert.KernelIdeal.Prefix.joinBi m c) Cert.KernelIdeal.Facts₀.shapeCasts_S3072_S1x3072 :=
    (row_of_vector _ _ _).symm
  have eh : Cert.ReferenceIdeal.Read.val_main_v11 (F := Ideal) (m ((c.tc : Thread nD τ).loc main_arg9)) (m ((c.tc : Thread nD τ).loc main_arg11)) (m ((c.tc : Thread nD τ).loc main_arg13))
      = shapeCast S1x3072 (Cert.KernelIdeal.Prefix.joinBh m c) Cert.KernelIdeal.Facts₀.shapeCasts_S3072_S1x3072 :=
    (row_of_vector _ _ _).symm
  rw [eb, eh]
  rfl

end Cert.Proof.Bridge

end
-- ==== Proof.lean ====
/-
  The certificate of the fused GRU-cell kernel against its reference.

  The kernel's program stacks and transposes the gate weights and joins the biases on the host, then runs one
  pallas_call over 128 tiles of 256 rows; each tile projects its rows of `x` and `h` through the resident weights, adds
  the biases, and combines the reset, update and candidate gates into the new hidden state.  The reference does the same
  on all 32768 rows at once.  Both programs run to their end and leave their arguments unchanged (the three frames: the
  kernel's two by the pipeline's frame theorem over the tile body's run, the reference's by its run); the idealization
  rewrote nothing; and at the exact instance both results are the cell function of the specification of the same
  operands, entry by entry: a matrix product into a zero accumulator and a host contraction are one sum, a change of
  float format is the identity, and the sigmoid written as `1 / (1 + e^(−s))` is the logistic function.  No
  algebraic law beyond that is used, so the finiteness of the inputs is never opened.
-/
import proofs.«170579_j82231443849805_1_alg».proof.Defs
import proofs.«170579_j82231443849805_1_alg».proof.Proof.Gen.Kernel
import proofs.«170579_j82231443849805_1_alg».proof.Proof.Gen.Kernel.Skeleton
import proofs.«170579_j82231443849805_1_alg».proof.Proof.Gen.Kernel.Launch
import proofs.«170579_j82231443849805_1_alg».proof.Proof.Gen.Kernel.Points
import proofs.«170579_j82231443849805_1_alg».proof.Proof.Gen.KernelIdeal
import proofs.«170579_j82231443849805_1_alg».proof.Proof.Gen.KernelIdeal.Skeleton
import proofs.«170579_j82231443849805_1_alg».proof.Proof.Gen.KernelIdeal.Launch
import proofs.«170579_j82231443849805_1_alg».proof.Proof.Gen.KernelIdeal.Points
import proofs.«170579_j82231443849805_1_alg».proof.Proof.Gen.ReferenceIdeal
import proofs.«170579_j82231443849805_1_alg».proof.Proof.Gen.Pre_finite_inputs
import proofs.«170579_j82231443849805_1_alg».proof.Proof.Gen.ReferenceIdeal.Run
import proofs.«170579_j82231443849805_1_alg».proof.Proof.Gen.ReferenceIdeal.Read
import proofs.«170579_j82231443849805_1_alg».proof.Proof.FrameBits
import proofs.«170579_j82231443849805_1_alg».proof.Proof.FrameIdeal
import proofs.«170579_j82231443849805_1_alg».proof.Proof.Blocks
import proofs.«170579_j82231443849805_1_alg».proof.Proof.Bridge
import Idealize.ShloMosaic.Adequacy
import Idealize.ShloMosaic.Init

noncomputable section

namespace Cert.Proof

open Idealize.ShloMosaic Idealize.SL.Sem

/-- The kernel's program as printed runs and keeps its arguments. -/
theorem frame_k : Cert.frame_Kernel := fun m ρ _ => Cert.Kernel.Frm.frame m ρ

/-- The idealized kernel's program runs and keeps its arguments. -/
theorem frame_ki : Cert.frame_KernelIdeal := fun m ρ _ => Cert.KernelIdeal.Frm.frame m ρ

/-- The reference runs and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the cell function of the same operands. -/
theorem algebraic : Cert.algebraic_KernelIdeal_ReferenceIdeal := by
  intro m ρ m' ρ' _ hagree
  refine ⟨fun c => Cert.KernelIdeal.Blocks.result m c, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  exact Cert.Proof.Bridge.result_eq m m' c h0 h1 h2 h3 h4 h5 h6 h7 h8 h9 h10 h11 h12 h13

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
